-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_scaler" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048 : Shape := ⟨2, ![16, 2048]⟩
abbrev S_ : Shape := ⟨0, ![]⟩
abbrev S16 : Shape := ⟨1, ![16]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  natLt_1_32 : 1 < 32
  reducesTo_S16x2048_S16_d1 : S16x2048.ReducesTo [1] S16
  bcast_S_S16 : S_.BroadcastsInDim S16 (![] : Fin 0 → Fin S16.rank)
  reducesTo_S16_S_d0 : S16.ReducesTo [0] S_

variable [Facts]

def fn_part1 {F : FTy → Type} [FloatOps F] (main_arg3 : IVec S16x2048 32) (main_v13 : IVec S_ 1) (main_v15 : IVec S16x2048 1) (main_c_5 : IVec S_ 32) : IVec S_ 1 :=
  let main_v16 : IVec S16x2048 32 := broadcastInDim S16x2048 ![] bcast_S_S16x2048 main_c_5
  let main_v17 : IVec S16x2048 1 := cmpi .eq main_arg3 main_v16
  let main_v18 : IVec S16x2048 1 := ori main_v15 main_v17
  let main_c_6 : IVec S_ 1 := constantI S_ 1 1#1
  let main_v19 : IVec S_ 1 := (fun x v => Host.reduce IntOp.andi x v reducesTo_S16x2048_S_d0_1 h_S_) main_v18 main_c_6
  let main_v20 : IVec S_ 1 := andi main_v13 main_v19
  let main_c_7 : IVec S_ 32 := constantI S_ 32 1#32
  let main_v21 : IVec S16x2048 32 := broadcastInDim S16x2048 ![] bcast_S_S16x2048 main_c_7
  let main_v22 : IVec S16x2048 1 := cmpi .eq main_arg3 main_v21
  let main_v23 : IVec S16x2048 32 := (extui 32 · natLt_1_32) main_v22
  let main_c_8 : IVec S_ 32 := constantI S_ 32 0#32
  let main_v24 : IVec S16 32 := (fun x v => Host.reduce IntOp.addi x v reducesTo_S16x2048_S16_d1 h_S_) main_v23 main_c_8
  let main_c_9 : IVec S_ 32 := constantI S_ 32 1#32
  let main_v25 : IVec S16 32 := broadcastInDim S16 ![] bcast_S_S16 main_c_9
  let main_v26 : IVec S16 1 := cmpi .sge main_v24 main_v25
  let main_c_10 : IVec S_ 1 := constantI S_ 1 1#1
  let main_v27 : IVec S_ 1 := (fun x v => Host.reduce IntOp.andi x v reducesTo_S16_S_d0 h_S_) main_v26 main_c_10
  let main_v28 : IVec S_ 1 := andi main_v20 main_v27
  main_v28

def fn {F : FTy → Type} [FloatOps F] (main_arg0 : FVec F S16x2048x128 .f32) (main_arg1 : FVec F S16x2048x128 .f32) (main_arg2 : FVec F S16x2048x128 .f32) (main_arg3 : IVec S16x2048 32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_c_4 : IVec S_ 32 := constantI S_ 32 0#32
  let main_v14 : IVec S16x2048 32 := broadcastInDim S16x2048 ![] bcast_S_S16x2048 main_c_4
  let main_v15 : IVec S16x2048 1 := cmpi .eq main_arg3 main_v14
  let main_c_5 : IVec S_ 32 := constantI S_ 32 1#32
  fn_part1 (F := F) main_arg3 main_v13 main_v15 main_c_5
-- ==== Kernel.lean ====
abbrev S16x2048x128 : Shape := ⟨3, ![16, 2048, 128]⟩
abbrev S16x2048 : Shape := ⟨2, ![16, 2048]⟩
abbrev S16x1x2048 : Shape := ⟨3, ![16, 1, 2048]⟩
abbrev S1x1024x128 : Shape := ⟨3, ![1, 1024, 128]⟩
abbrev S1x2048x128 : Shape := ⟨3, ![1, 2048, 128]⟩
abbrev S1x1x2048 : Shape := ⟨3, ![1, 1, 2048]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048, .i32⟩
  | .hbm, ⟨4, _⟩ => ⟨S16x2048, .f32⟩
  | .hbm, ⟨5, _⟩ => ⟨S16x1x2048, .f32⟩
  | .hbm, ⟨6, _⟩ => ⟨S16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x128, .f32⟩
  | .local _ .vmem, ⟨9, _⟩ => ⟨S1x1024x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x2048_S16x1x2048 : S16x2048.ShapeCasts S16x1x2048
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  broadcasts_S1024x1_S1024x128 : S1024x1.Broadcasts S1024x128
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .f32 = 32 ∨ (Rect.block (s := S16x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S16x2048x128.size a
  hwx0_4 : ∀ i : grid0.Coords, EltTy.bits .f32 = 32 ∨ (Rect.block (s := S16x2048x128) S1x1024x128.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048 : Shape := ⟨2, ![16, 2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048, .i32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048, .f32⟩
  | .hbm, ⟨15, _⟩ => ⟨S16x1x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Attn.lean ====
/-
  Masked softmax attention on the extended reals, one query row at a time, in the two arrangements the two programs use.

  For a row of scores `s j` (j over the 2048 keys), a row of mask values `mk j` and a column of values `v j`:
  the weight of key j is `exp (s j - max s) * mk j`, the denominator is the sum of the weights, and
    * the kernel divides the weighted sum of the values by the denominator (`outK`),
    * the reference divides every weight by the denominator first and then sums (`outR`).
  The scores themselves are the inner product of a query row and a key row, scaled
    * in the kernel by multiplying every query entry by c before the product (`scoreK`),
    * in the reference by dividing the finished inner product by D (`scoreR`).
  With c = 1 / D, finite entries, a mask of zeros and ones and at least one one in the mask row, both pairs agree:
  the denominator is then a positive real, so division by it distributes over the finite sum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An extended real that is a real number. -/
def IsReal (x : EReal) : Prop := ∃ r : ℝ, x = (r : EReal)

/-- The largest score of a row (folded from minus infinity). -/
def rowMax (s : Fin 2048 → EReal) : EReal := (Finset.univ : Finset (Fin 2048)).fold max ⊥ s

/-- The weight of key j: the exponential of its score's distance below the row maximum, times the mask value. -/
def wt (s mk : Fin 2048 → EReal) (j : Fin 2048) : EReal := Ideal.exp (s j - rowMax s) * mk j

/-- The sum of a row's weights. -/
def den (s mk : Fin 2048 → EReal) : EReal := ∑ j, wt s mk j

/-- The kernel's arrangement: the weighted sum of the values, divided once. -/
def outK (s mk v : Fin 2048 → EReal) : EReal := Ideal.div (∑ j, wt s mk j * v j) (den s mk)

/-- The reference's arrangement: every weight divided, then the sum. -/
def outR (s mk v : Fin 2048 → EReal) : EReal := ∑ j, Ideal.div (wt s mk j) (den s mk) * v j

/-- The kernel's score: the query row scaled entry by entry, then the inner product. -/
def scoreK (c : EReal) (q k : Fin 128 → EReal) : EReal := ∑ d, (q d * c) * k d

/-- The reference's score: the inner product, then one division. -/
def scoreR (D : EReal) (q k : Fin 128 → EReal) : EReal := Ideal.div (∑ d, q d * k d) D

/-- The kernel's scale, named 1 / D exactly. -/
abbrev cK : EReal := ((1048576 / 11863283 : ℝ) : EReal)
/-- The reference's divisor D. -/
abbrev dR : EReal := ((11863283 / 1048576 : ℝ) : EReal)

/-- A finite sum of real numbers, summed on the extended reals, is the real sum. -/
private theorem coe_sum' {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The maximum of a finite family of real numbers, folded from minus infinity, is a real number unless the
    family is empty. -/
private theorem fold_max_real {ι : Type} (t : Finset ι) (f : ι → ℝ) :
    (∃ r : ℝ, t.fold max ⊥ (fun i => ((f i : ℝ) : EReal)) = (r : EReal)) ∨ t = ∅ := by
  classical
  induction t using Finset.induction_on with
  | empty => exact Or.inr rfl
  | insert a t ha ih =>
    left
    rw [Finset.fold_insert ha]
    rcases ih with ⟨r, hr⟩ | h
    · exact ⟨max (f a) r, by rw [hr]; exact (EReal.coe_strictMono.monotone.map_max).symm⟩
    · exact ⟨f a, by rw [h, Finset.fold_empty]; exact max_bot_right _⟩

/-- Scaling the query entries by 1 / D is dividing the inner product by D, for finite entries. -/
theorem scoreK_eq_scoreR {q k : Fin 128 → EReal} (hq : ∀ d, IsReal (q d)) (hk : ∀ d, IsReal (k d)) :
    scoreK cK q k = scoreR dR q k := by
  choose qr hqr using hq
  choose kr hkr using hk
  unfold scoreK scoreR
  rw [Ideal.div_coe (by norm_num)]
  simp only [hqr, hkr, ← EReal.coe_mul]
  rw [coe_sum', coe_sum', ← EReal.coe_mul]
  congr 1
  rw [Finset.sum_mul]
  refine Finset.sum_congr rfl fun d _ => ?_
  ring

/-- The score of finite rows is finite. -/
theorem scoreR_real {q k : Fin 128 → EReal} (hq : ∀ d, IsReal (q d)) (hk : ∀ d, IsReal (k d)) :
    IsReal (scoreR dR q k) := by
  choose qr hqr using hq
  choose kr hkr using hk
  unfold scoreR
  rw [Ideal.div_coe (by norm_num)]
  simp only [hqr, hkr, ← EReal.coe_mul]
  rw [coe_sum', ← EReal.coe_mul]
  exact ⟨_, rfl⟩

/-- Dividing the weighted sum once is dividing every weight: the denominator is a positive real when the scores and
    values are finite, the mask holds zeros and ones, and some mask entry is one. -/
theorem outK_eq_outR {s mk v : Fin 2048 → EReal} (hs : ∀ j, IsReal (s j)) (hmk : ∀ j, mk j = 0 ∨ mk j = 1)
    (hone : ∃ j, mk j = 1) (hv : ∀ j, IsReal (v j)) : outK s mk v = outR s mk v := by
  choose sr hsr using hs
  choose vr hvr using hv
  -- the mask row as real numbers, each zero or one
  have hmk' : ∀ j, ∃ r : ℝ, mk j = (r : EReal) ∧ (r = 0 ∨ r = 1) := fun j => by
    rcases hmk j with h | h
    · exact ⟨0, by rw [h, EReal.coe_zero], Or.inl rfl⟩
    · exact ⟨1, by rw [h, EReal.coe_one], Or.inr rfl⟩
  choose mr hmr hmr01 using hmk'
  -- the row maximum is a real number
  obtain ⟨m, hm⟩ : ∃ m : ℝ, rowMax s = (m : EReal) := by
    have hsf : s = fun j => ((sr j : ℝ) : EReal) := funext hsr
    rcases fold_max_real (Finset.univ : Finset (Fin 2048)) sr with h | h
    · obtain ⟨r, hr⟩ := h
      exact ⟨r, by unfold rowMax; rw [hsf]; exact hr⟩
    · exact absurd h (Finset.univ_nonempty.ne_empty)
  -- every weight is a nonnegative real number
  have hw : ∀ j, wt s mk j = ((Real.exp (sr j - m) * mr j : ℝ) : EReal) := fun j => by
    unfold wt
    rw [hm, hsr j, hmr j, ← EReal.coe_sub, Ideal.exp_coe, ← EReal.coe_mul]
  have hw0 : ∀ j, 0 ≤ Real.exp (sr j - m) * mr j := fun j => by
    rcases hmr01 j with h | h <;> rw [h] <;> simp [(Real.exp_pos _).le]
  -- the denominator is a positive real number
  have hden : den s mk = ((∑ j, Real.exp (sr j - m) * mr j : ℝ) : EReal) := by
    unfold den
    simp only [hw]
    exact coe_sum' _ _
  have hpos : 0 < ∑ j, Real.exp (sr j - m) * mr j := by
    obtain ⟨j0, hj0⟩ := hone
    have h1 : mr j0 = 1 := by
      have := hmr j0
      rw [hj0, ← EReal.coe_one] at this
      exact (EReal.coe_eq_coe_iff.mp this).symm
    refine lt_of_lt_of_le ?_ (Finset.single_le_sum (fun j _ => hw0 j) (Finset.mem_univ j0))
    rw [h1, mul_one]
    exact Real.exp_pos _
  unfold outK outR
  rw [hden]
  simp only [Ideal.div_coe hpos.ne', hw, hvr, ← EReal.coe_mul]
  rw [coe_sum', coe_sum', ← EReal.coe_mul]
  congr 1
  rw [Finset.sum_mul]
  refine Finset.sum_congr rfl fun j _ => ?_
  ring

/-! ## The whole arrays -/

abbrev SQ : Shape := ⟨3, ![16, 2048, 128]⟩
abbrev SM : Shape := ⟨2, ![16, 2048]⟩

/-- The mask word of batch b and key j as an extended real: the integer it encodes. -/
def maskF (mk : SM.Idx → BitVec 32) (b : Fin 16) (j : Fin 2048) : EReal := (((mk (ix2 b j)).toInt : ℝ) : EReal)

/-- The kernel's result at batch b, query i, channel d. -/
def GKat (q k v : SQ.Idx → EReal) (mk : SM.Idx → BitVec 32) (b : Fin 16) (i : Fin 2048) (d : Fin 128) : EReal :=
  outK (fun j => scoreK cK (fun e => q (ix3 b i e)) (fun e => k (ix3 b j e))) (maskF mk b) (fun j => v (ix3 b j d))

/-- The reference's result at batch b, query i, channel d. -/
def GRat (q k v : SQ.Idx → EReal) (mk : SM.Idx → BitVec 32) (b : Fin 16) (i : Fin 2048) (d : Fin 128) : EReal :=
  outR (fun j => scoreR dR (fun e => q (ix3 b i e)) (fun e => k (ix3 b j e))) (maskF mk b) (fun j => v (ix3 b j d))

/-- The kernel's result array as one function of the four argument arrays. -/
def GK (q k v : SQ.Idx → EReal) (mk : SM.Idx → BitVec 32) : SQ.Idx → EReal := fun x => GKat q k v mk (x 0) (x 1) (x 2)

/-- The reference's result array as one function of the four argument arrays. -/
def GR (q k v : SQ.Idx → EReal) (mk : SM.Idx → BitVec 32) : SQ.Idx → EReal := fun x => GRat q k v mk (x 0) (x 1) (x 2)

/-- The two result arrays are one, for finite q, k, v and a mask of zeros and ones with a one in every batch row. -/
theorem GK_eq_GR {q k v : SQ.Idx → EReal} {mk : SM.Idx → BitVec 32} (hq : ∀ x, IsReal (q x)) (hk : ∀ x, IsReal (k x))
    (hv : ∀ x, IsReal (v x)) (h01 : ∀ x, mk x = 0#32 ∨ mk x = 1#32) (hrow : ∀ b : Fin 16, ∃ j : Fin 2048, mk (ix2 b j) = 1#32) :
    GK q k v mk = GR q k v mk := by
  funext x
  show GKat q k v mk (x 0) (x 1) (x 2) = GRat q k v mk (x 0) (x 1) (x 2)
  unfold GKat GRat
  have hs : (fun j => scoreK cK (fun e => q (ix3 (x 0) (x 1) e)) (fun e => k (ix3 (x 0) j e)))
      = (fun j => scoreR dR (fun e => q (ix3 (x 0) (x 1) e)) (fun e => k (ix3 (x 0) j e))) :=
    funext fun j => scoreK_eq_scoreR (fun e => hq _) (fun e => hk _)
  rw [hs]
  refine outK_eq_outR (fun j => scoreR_real (fun e => hq _) (fun e => hk _)) (fun j => ?_) ?_ (fun j => hv _)
  · unfold maskF
    rcases h01 (ix2 (x 0) j) with h | h
    · left; rw [h]; norm_num
    · right; rw [h]; norm_num
  · obtain ⟨j, hj⟩ := hrow (x 0)
    exact ⟨j, by unfold maskF; rw [hj]; norm_num⟩

end Cert.Attn

end
-- ==== Proof.PreFacts.lean ====
/-
  What the precondition says about the four argument arrays: every entry of q, k and v is a real number, every mask
  word is zero or one, and every batch row of the mask holds a one.
-/
import proofs.«425559_j5626407157993_3_alg».proof.Pre_finite_inputs
import proofs.«425559_j5626407157993_3_alg».proof.Proof.Gen.Pre_finite_inputs
import proofs.«425559_j5626407157993_3_alg».proof.Proof.Attn
import Idealize.ShloMosaic.Lib.ReduceAll
import Idealize.ShloMosaic.Lib.StableHlo.Predicate

noncomputable section

namespace Cert.PreFacts

open Idealize.ShloMosaic Idealize.ShloMosaic.ValueIdx Cert.Attn

open Idealize.ShloMosaic.StableHlo.Predicate

/-- The scalar shape has a single index. -/
private instance scalarIdxSubsingleton : Subsingleton Cert.Pre_finite_inputs.S_.Idx :=
  ⟨fun a b => funext fun d => d.elim0⟩

/-- An extended real whose absolute value max x (-x) lies strictly below the f32 pattern of +∞ is a real number:
    at ⊤ the absolute value is ⊤, at ⊥ it is -⊥ = ⊤, and ⊤ < ⊤ fails. -/
private theorem isReal_of_abs_lt (x : EReal)
    (hx : FloatOps.cmpf (F := Ideal) (φ := .f32) .olt (FloatOps.hostAbsf x) (FloatOps.ofBits .f32 0x7F800000#32) = 1#1) :
    IsReal x := by
  have hT : Ideal.ofBits .f32 0x7F800000#32 = (⊤ : EReal) := by simp [Ideal.ofBits, Ideal.ieee]
  have hx' : Ideal.cmp .olt (max x (-x)) (Ideal.ofBits .f32 0x7F800000#32) = 1#1 := hx
  rw [hT] at hx'
  simp only [Ideal.cmp, ofBool_eq_one_iff, decide_eq_true_eq] at hx'
  induction x using EReal.rec with
  | bot => simp at hx'
  | coe r => exact ⟨r, rfl⟩
  | top => simp at hx'

/-- If the number of set bits in row b of a [16 × 2048] mask of bits, computed as the wrapped 32-bit sum of the widened
    bits along the row, compares signed-greater-or-equal to one, then some column of row b holds a set bit: the sum is
    the count of set columns, at most 2048 and so far below 2³¹, where signed and unsigned order agree. -/
private theorem exists_col_of_count_ge_one (M : IVec ⟨2, ![16, 2048]⟩ 1) (hw : 1 < 32)
    (hr : (⟨2, ![16, 2048]⟩ : Shape).ReducesTo [1] ⟨1, ![16]⟩) {u : Shape} (hu : 0 < u.numel) (b : Fin 16)
    (hb : IntOp.cmpi .sge (Host.reduce IntOp.addi (extui 32 M hw) (constantI u 32 0#32) hr hu (ix1 b)) 1#32 = 1#1) :
    ∃ j : Fin 2048, M (ix2 b j) = 1#1 := by
  have hcount := toNat_reduce_count_cols (n := 16) (m := 2048) (by norm_num) M hw hr hu (ix1 b)
  have hle : (Finset.univ.filter (fun q : Fin 2048 => M (ij ((ix1 b) 0) q) = 1#1)).card ≤ 2048 := by
    simpa using Finset.card_le_univ (Finset.univ.filter (fun q : Fin 2048 => M (ij ((ix1 b) 0) q) = 1#1))
  have hge := (sge_iff_toNat (by rw [hcount]; omega) (by decide)).1 hb
  rw [hcount] at hge
  have hpos : 0 < (Finset.univ.filter (fun q : Fin 2048 => M (ij ((ix1 b) 0) q) = 1#1)).card :=
    lt_of_lt_of_le (by decide) hge
  obtain ⟨j, hj⟩ := Finset.card_pos.1 hpos
  exact ⟨j, (Finset.mem_filter.1 hj).2⟩

/-- The printed precondition, all ones, read conjunct by conjunct. -/
theorem decode (q k v : FVec Ideal Cert.Pre_finite_inputs.S16x2048x128 .f32) (mk : IVec Cert.Pre_finite_inputs.S16x2048 32)
    (h : Cert.Pre_finite_inputs.fn (F := Ideal) q k v mk = fun _ => 1#1) :
    (∀ x, IsReal (q x)) ∧ (∀ x, IsReal (k x)) ∧ (∀ x, IsReal (v x)) ∧ (∀ x, mk x = 0#32 ∨ mk x = 1#32)
      ∧ (∀ b : Fin 16, ∃ j : Fin 2048, mk (ix2 b j) = 1#32) := by
  have h0 := congrFun h ValueIdx.ix0
  dsimp only [Cert.Pre_finite_inputs.fn, Cert.Pre_finite_inputs.fn_part1] at h0
  -- the five conjuncts of the outer conjunction
  obtain ⟨h1234, e5⟩ := IntOp.andi_eq_one.1 h0
  obtain ⟨h123, e4⟩ := IntOp.andi_eq_one.1 h1234
  obtain ⟨h12, e3⟩ := IntOp.andi_eq_one.1 h123
  obtain ⟨e1, e2⟩ := IntOp.andi_eq_one.1 h12
  refine ⟨fun x => ?_, fun x => ?_, fun x => ?_, fun x => ?_, fun b => ?_⟩
  · exact isReal_of_abs_lt _ (Host.reduce_andi_all _ _ _ _ ix0 e1 x)
  · exact isReal_of_abs_lt _ (Host.reduce_andi_all _ _ _ _ ix0 e2 x)
  · exact isReal_of_abs_lt _ (Host.reduce_andi_all _ _ _ _ ix0 e3 x)
  · -- one of the two comparisons against the constants 0 and 1 holds at x
    have hx := Host.reduce_andi_all _ _ _ _ ix0 e4 x
    rcases IntOp.ori_eq_one.1 hx with h' | h'
    · exact Or.inl (cmpi_eq_iff.1 h')
    · exact Or.inr (cmpi_eq_iff.1 h')
  · -- row b's count of ones is at least one, so some column of row b holds a one
    have hb := Host.reduce_andi_all _ _ _ _ ix0 e5 (ix1 b)
    obtain ⟨j, hj⟩ := exists_col_of_count_ge_one _ _ _ _ b hb
    exact ⟨j, cmpi_eq_iff.1 hj⟩

end Cert.PreFacts

end
-- ==== Proof.Consts.lean ====
/-
  The two float words of this statement whose values the proof needs as extended reals: the reference's divisor
  and the minus infinity both row maxima start from.
-/
import Idealize.ShloMosaic.PureOps.Ideal

noncomputable section

namespace Cert.Consts

open Idealize.ShloMosaic

/-- The reference's divisor, the single-precision neighbour of the square root of 128, is the dyadic
    rational 11863283 / 2^20. -/
theorem ofBits_scaler : Ideal.ofBits .f32 0x413504F3#32 = ((11863283 / 1048576 : ℝ) : EReal) := by
  simp [Ideal.ofBits, Ideal.ieee, -EReal.coe_mul]; norm_num

/-- The word both maxima are folded from is minus infinity, the bottom of the extended reals. -/
theorem ofBits_neg_inf : Ideal.ofBits .f32 0xFF800000#32 = ⊥ := by
  simp [Ideal.ofBits, Ideal.ieee]

end Cert.Consts

end
-- ==== Proof.KernelPay.lean ====
/-
  The kernel body's stored value at one index of its output block: row r, channel d of the block is the kernel's
  arrangement of masked softmax attention (`Attn.outK`) of query row r against the 2048 key rows, the mask row and
  column d of the value rows, the scores scaled by the named constant.

  The body is read in stages: the scaled query block and the key and value blocks as the two matrix products see them
  (changes of float format are the identity on the extended reals), the score matrix (a matrix product into a zero
  accumulator is the plain sum over the contracted axis), its row maxima (a lane maximum from minus infinity), the
  weight matrix, its row sums, and the final quotient of the second matrix product by the row sums.
-/
import proofs.«425559_j5626407157993_3_alg».proof.Proof.Gen.KernelIdeal.Skeleton
import proofs.«425559_j5626407157993_3_alg».proof.Proof.Attn
import proofs.«425559_j5626407157993_3_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnPay

open Cert.KernelIdeal Cert.KernelIdeal.Gen Idealize.ShloMosaic Idealize.ShloMosaic.ValueIdx Cert.Attn

/-- The kernel's scale constant denotes 1 / D at the extended reals, by the certificate's table. -/
theorem inv_scaler : Named.named (F := Ideal) Cert.KernelIdeal.κ "inv_scaler" (φ := .f32) 0x3DB504F3#32 = cK :=
  IdealRules.named_const.ideal_named_scalar _ _ _ _ rfl

/-! ## Layout: a vector kept as a column, and a column laid across a row -/

section Layout
variable {α : Type}

/-- A length-1024 vector recast as a 1024 × 1 column reads, at (i, 0), the vector at i. -/
theorem cast_col (x : (⟨1, ![1024]⟩ : Shape).Idx → α) (h : (⟨1, ![1024]⟩ : Shape).ShapeCasts ⟨2, ![1024, 1]⟩) (i : Fin 1024) (u : Fin 1) :
    shapeCast ⟨2, ![1024, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A 1024 × 1 column broadcast across b columns reads, at (i, j), the column at (i, 0). -/
theorem bcast_col {b : ℕ} (x : (⟨2, ![1024, 1]⟩ : Shape).Idx → α) (h : (⟨2, ![1024, 1]⟩ : Shape).Broadcasts ⟨2, ![1024, b]⟩)
    (i : Fin 1024) (j : Fin b) : broadcastTo ⟨2, ![1024, b]⟩ x h (ix2 i j) = x (ix2 i (0 : Fin 1)) := by
  refine broadcastTo_apply x h (ix2 i j) (ix2 i (0 : Fin 1)) fun ax => ?_
  match ax with
  | ⟨0, _⟩ =>
    show i.val = if (1024 : ℕ) = 1 then 0 else i.val
    rw [if_neg (by decide)]
  | ⟨1, _⟩ => rfl

end Layout

/-! ## The two reductions along a row of the 1024 × 2048 matrices -/

/-- Row r with column k put back is (r, k). -/
theorem lift_row (h : S1024x2048.Reduces [1] S1024) (r : Fin 1024) (k : Fin (S1024x2048.size 1)) :
    h.lift (ix1 r) k = ix2 r (⟨k.val, k.isLt⟩ : Fin 2048) := by
  funext c; apply Fin.ext
  fin_cases c <;> rfl

/-- The lane sum of a 1024 × 2048 matrix at row r is the sum of the row. -/
theorem sum_row (src : FVec Ideal S1024x2048 .f32) (h : S1024x2048.Reduces [1] S1024) (hφ : FKind.Formats .f32)
    (hacc : (0x00000000#32 : BitVec 32) = 0x00000000#32) (r : Fin 1024) :
    multiReduction .add [1] S1024 src 0x00000000#32 h hφ hacc (ix1 r) = ∑ j : Fin 2048, src (ix2 r j) := by
  refine (Ideal.multiReduction_add_single src 0x00000000#32 h hφ hacc (ix1 r)).trans ?_
  exact Finset.sum_congr rfl fun k _ => congrArg src (lift_row h r k)

/-- The lane maximum of a 1024 × 2048 matrix at row r, from minus infinity, is the largest entry of the row. -/
theorem max_row (src : FVec Ideal S1024x2048 .f32) (h : S1024x2048.Reduces [1] S1024) (hφ : FKind.Formats .f32)
    (hacc : (0xFF800000#32 : BitVec 32) = 0xFF800000#32) (r : Fin 1024) :
    multiReduction .maximumf [1] S1024 src 0xFF800000#32 h hφ hacc (ix1 r) = rowMax (fun j => src (ix2 r j)) := by
  refine (Ideal.multiReduction_maximumf_single src 0xFF800000#32 h hφ hacc (ix1 r)).trans ?_
  show Finset.fold max (Ideal.ofBits .f32 0xFF800000#32) (src ∘ h.lift (ix1 r)) Finset.univ = _
  rw [Cert.Consts.ofBits_neg_inf]
  have hf : (src ∘ h.lift (ix1 r)) = fun j : Fin 2048 => src (ix2 r j) := funext fun k => congrArg src (lift_row h r k)
  exact congrArg (fun f => Finset.fold max (⊥ : EReal) f (Finset.univ : Finset (Fin 2048))) hf

/-! ## The two matrix products -/

theorem lhs1_0 (i : S1024x2048.Idx) (q : dot_S1024x128_S2048x128_S1024x2048_1_1_0_0_n_n.contr.Idx) : (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs1_1 (i : S1024x2048.Idx) (q : dot_S1024x128_S2048x128_S1024x2048_1_1_0_0_n_n.contr.Idx) : (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhs1_0 (i : S1024x2048.Idx) (q : dot_S1024x128_S2048x128_S1024x2048_1_1_0_0_n_n.contr.Idx) : (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs1_1 (i : S1024x2048.Idx) (q : dot_S1024x128_S2048x128_S1024x2048_1_1_0_0_n_n.contr.Idx) : (dot_S1024x128_S2048x128_S1024x2048_1_1_0_0_n_n.rhsIdx i q 1).val = (q ⟨0, by decide⟩).val :=
  dot_S1024x128_S2048x128_S1024x2048_1_1_0_0_n_n.rhsIdx_val_of_single rfl i q

/-- The score product: entry (r, j) is the inner product of row r of the left block and row j of the right block. -/
theorem mm1_apply (lhs : FVec Ideal S1024x128 .bf16) (rhs : FVec Ideal S2048x128 .bf16) (r : Fin 1024) (j : Fin 2048) :
    matmul dot_S1024x128_S2048x128_S1024x2048_1_1_0_0_n_n none lhs rhs (constant S1024x2048 .f32 0x00000000#32) (ix2 r j)
      = ∑ e : Fin 128, lhs (ix2 r e) * rhs (ix2 j e) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r j) ((ValueIdx.contrEquiv1 dot_S1024x128_S2048x128_S1024x2048_1_1_0_0_n_n 128 rfl rfl).symm k) = ix2 r k := funext fun a => Fin.ext (by
    match a with
    | ⟨0, _⟩ => exact lhs1_0 _ _
    | ⟨1, _⟩ => exact (lhs1_1 _ _).trans hk)
  have er : dot_S1024x128_S2048x128_S1024x2048_1_1_0_0_n_n.rhsIdx (ix2 r j) ((ValueIdx.contrEquiv1 dot_S1024x128_S2048x128_S1024x2048_1_1_0_0_n_n 128 rfl rfl).symm k) = ix2 j k := funext fun a => Fin.ext (by
    match a with
    | ⟨0, _⟩ => exact rhs1_0 _ _
    | ⟨1, _⟩ => exact (rhs1_1 _ _).trans hk)
  rw [el, er]

theorem lhs2_0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs2_1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs2_0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs2_1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The value product: entry (r, d) is the sum over the keys j of the left (r, j) times the right (j, d). -/
theorem mm2_apply (lhs : FVec Ideal S1024x2048 .bf16) (rhs : FVec Ideal S2048x128 .bf16) (r : Fin 1024) (d : Fin 128) :
    matmul dot_S1024x2048_S2048x128_S1024x128_1_0_0_1_n_n none lhs rhs (constant S1024x128 .f32 0x00000000#32) (ix2 r d)
      = ∑ j : Fin 2048, lhs (ix2 r j) * rhs (ix2 j d) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r d) ((ValueIdx.contrEquiv1 dot_S1024x2048_S2048x128_S1024x128_1_0_0_1_n_n 2048 rfl rfl).symm k) = ix2 r k := funext fun a => Fin.ext (by
    match a with
    | ⟨0, _⟩ => exact lhs2_0 _ _
    | ⟨1, _⟩ => exact (lhs2_1 _ _).trans hk)
  have er : dot_S1024x2048_S2048x128_S1024x128_1_0_0_1_n_n.rhsIdx (ix2 r d) ((ValueIdx.contrEquiv1 dot_S1024x2048_S2048x128_S1024x128_1_0_0_1_n_n 2048 rfl rfl).symm k) = ix2 k d := funext fun a => Fin.ext (by
    match a with
    | ⟨0, _⟩ => exact (rhs2_0 _ _).trans hk
    | ⟨1, _⟩ => exact rhs2_1 _ _)
  rw [el, er]

/-! ## The body in stages -/

section Stages
variable (x0 : Vec Ideal S1x1024x128 .f32) (x1 x2 : Vec Ideal S1x2048x128 .f32) (x3 : Vec Ideal S1x1x2048 .f32)

/-- The query block, every entry scaled by the named constant, as the score product sees it. -/
def qS : FVec Ideal S1024x128 .bf16 :=
  truncf .bf16 (mulf (shapeCast S1024x128 x0 shapeCasts_S1x1024x128_S1024x128)
    (broadcast S1024x128 (Named.named (F := Ideal) κ "inv_scaler" (φ := .f32) 0x3DB504F3#32))) bitsLt_bf16_f32

/-- A key or value block as a matrix product sees it. -/
def kS (x : Vec Ideal S1x2048x128 .f32) : FVec Ideal S2048x128 .bf16 :=
  truncf .bf16 (shapeCast S2048x128 x shapeCasts_S1x2048x128_S2048x128) bitsLt_bf16_f32

/-- The score matrix. -/
def sc : FVec Ideal S1024x2048 .f32 :=
  matmul dot_S1024x128_S2048x128_S1024x2048_1_1_0_0_n_n none (qS x0) (kS x1) (constant S1024x2048 .f32 0x00000000#32)

/-- The row maxima of the scores. -/
def mx : FVec Ideal S1024 .f32 :=
  multiReduction .maximumf [1] S1024 (sc x0 x1) 0xFF800000#32 reduces_S1024x2048_S1024 (.inl rfl) rfl

/-- The weight matrix. -/
def pw : FVec Ideal S1024x2048 .f32 :=
  mulf (exp (subf (sc x0 x1) (broadcastTo S1024x2048 (shapeCast S1024x1 (mx x0 x1) shapeCasts_S1024_S1024x1) broadcasts_S1024x1_S1024x2048)))
    (broadcastTo S1024x2048 (shapeCast S1x2048 x3 shapeCasts_S1x1x2048_S1x2048) broadcasts_S1x2048_S1024x2048)

/-- The row sums of the weights. -/
def dn : FVec Ideal S1024 .f32 :=
  multiReduction .add [1] S1024 (pw x0 x1 x3) 0x00000000#32 reduces_S1024x2048_S1024 (.inl rfl) rfl

/-- The stored value is the stages composed. -/
theorem pay_eq : k0_pay1 (F := Ideal) x0 x1 x2 x3
    = shapeCast S1x1024x128 (divf (matmul dot_S1024x2048_S2048x128_S1024x128_1_0_0_1_n_n none (truncf .bf16 (pw x0 x1 x3) bitsLt_bf16_f32) (kS x2) (constant S1024x128 .f32 0x00000000#32))
        (broadcastTo S1024x128 (shapeCast S1024x1 (dn x0 x1 x3) shapeCasts_S1024_S1024x1) broadcasts_S1024x1_S1024x128)) shapeCasts_S1024x128_S1x1024x128 := rfl

theorem qS_apply (r : Fin 1024) (e : Fin 128) : qS x0 (ix2 r e) = x0 (ix3 (0 : Fin 1) r e) * cK := by
  show shapeCast S1024x128 x0 shapeCasts_S1x1024x128_S1024x128 (ix2 r e) * Named.named (F := Ideal) κ "inv_scaler" (φ := .f32) 0x3DB504F3#32 = _
  rw [shapeCast_1ab_ab_apply, inv_scaler]

theorem kS_apply (x : Vec Ideal S1x2048x128 .f32) (j : Fin 2048) (e : Fin 128) : kS x (ix2 j e) = x (ix3 (0 : Fin 1) j e) := by
  show shapeCast S2048x128 x shapeCasts_S1x2048x128_S2048x128 (ix2 j e) = _
  rw [shapeCast_1ab_ab_apply]

theorem sc_apply (r : Fin 1024) (j : Fin 2048) :
    sc x0 x1 (ix2 r j) = scoreK cK (fun e => x0 (ix3 (0 : Fin 1) r e)) (fun e => x1 (ix3 (0 : Fin 1) j e)) := by
  unfold sc scoreK
  rw [mm1_apply]
  exact Finset.sum_congr rfl fun e _ => by rw [qS_apply, kS_apply]

theorem mx_apply (r : Fin 1024) : mx x0 x1 (ix1 r) = rowMax (fun j => sc x0 x1 (ix2 r j)) :=
  max_row (sc x0 x1) reduces_S1024x2048_S1024 (.inl rfl) rfl r

theorem pw_apply (r : Fin 1024) (j : Fin 2048) :
    pw x0 x1 x3 (ix2 r j) = wt (fun j => sc x0 x1 (ix2 r j)) (fun j => x3 (ix3 (0 : Fin 1) (0 : Fin 1) j)) j := by
  show Ideal.exp (sc x0 x1 (ix2 r j)
        - broadcastTo S1024x2048 (shapeCast S1024x1 (mx x0 x1) shapeCasts_S1024_S1024x1) broadcasts_S1024x1_S1024x2048 (ix2 r j))
      * broadcastTo S1024x2048 (shapeCast S1x2048 x3 shapeCasts_S1x1x2048_S1x2048) broadcasts_S1x2048_S1024x2048 (ix2 r j) = _
  rw [bcast_col, cast_col, mx_apply, broadcastTo_1b_ab_apply, shapeCast_1ab_ab_apply]
  rfl

theorem dn_apply (r : Fin 1024) : dn x0 x1 x3 (ix1 r) = ∑ j : Fin 2048, pw x0 x1 x3 (ix2 r j) :=
  sum_row (pw x0 x1 x3) reduces_S1024x2048_S1024 (.inl rfl) rfl r

end Stages

/-- Row r, channel d of the stored block. -/
theorem pay_apply (x0 : Vec Ideal S1x1024x128 .f32) (x1 x2 : Vec Ideal S1x2048x128 .f32) (x3 : Vec Ideal S1x1x2048 .f32)
    (r : Fin 1024) (d : Fin 128) :
    k0_pay1 (F := Ideal) x0 x1 x2 x3 (ix3 (0 : Fin 1) r d)
      = outK (fun j => scoreK cK (fun e => x0 (ix3 (0 : Fin 1) r e)) (fun e => x1 (ix3 (0 : Fin 1) j e)))
          (fun j => x3 (ix3 (0 : Fin 1) (0 : Fin 1) j)) (fun j => x2 (ix3 (0 : Fin 1) j d)) := by
  have hs : (fun j => sc x0 x1 (ix2 r j)) = fun j => scoreK cK (fun e => x0 (ix3 (0 : Fin 1) r e)) (fun e => x1 (ix3 (0 : Fin 1) j e)) :=
    funext fun j => sc_apply x0 x1 r j
  rw [pay_eq, shapeCast_ab_1ab_apply, divf_apply, mm2_apply, bcast_col, cast_col, dn_apply, ← hs]
  unfold outK den
  refine congrArg₂ Ideal.div (Finset.sum_congr rfl fun j _ => ?_) (Finset.sum_congr rfl fun j _ => pw_apply x0 x1 x3 r j)
  rw [truncf_apply, pw_apply, kS_apply]

end Cert.KernelIdeal.AttnPay

end
-- ==== Proof.KernelValue.lean ====
/-
  The kernel's result array after its run is `Attn.GK` of the four argument arrays: grid point (b, h) writes rows
  1024 h … 1024 h + 1023 of batch b, the 32 blocks cover the array, and each block entry is the payload at its index.
-/
import proofs.«425559_j5626407157993_3_alg».proof.Proof.Gen.KernelIdeal.Value
import proofs.«425559_j5626407157993_3_alg».proof.Proof.KernelPay

noncomputable section

namespace Cert.KernelIdeal.AttnValue

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The zero offsets of a whole-block access, as a constant function. -/
private theorem zero_off : (![0, 0, 0] : Fin 3 → Nat) = fun _ => 0 := funext fun a => by fin_cases a <;> rfl

/-- The block indices of the five windows at a grid point, checked at each of the 32 points: the query block sits where
    the result block sits; the key, value and mask blocks share its batch index and are whole on the other two axes;
    the result's block index is (batch ≤ 15, half ≤ 1, 0). -/
private theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 3) = win0_4.index t (0 : Fin 3)
    ∧ win0_2.index t (1 : Fin 3) = 0
    ∧ win0_2.index t (2 : Fin 3) = 0
    ∧ win0_3.index t (0 : Fin 3) = win0_4.index t (0 : Fin 3)
    ∧ win0_3.index t (1 : Fin 3) = 0
    ∧ win0_3.index t (2 : Fin 3) = 0
    ∧ win0_4.index t (0 : Fin 3) ≤ 15
    ∧ win0_4.index t (1 : Fin 3) ≤ 1
    ∧ win0_4.index t (2 : Fin 3) = 0 :=
  (by decide +kernel : ∀ t : Fin grid0.N, _)

/-- Every (batch, half) pair is the result's block index at some grid point. -/
private theorem index_onto : ∀ (b : Fin 16) (h : Fin 2), ∃ t : Fin cfg0.N, win0_4.index t = ![b.val, h.val, 0] :=
  (by decide +kernel : ∀ (b : Fin 16) (h : Fin 2), ∃ t : Fin grid0.N, win0_4.index t = ![b.val, h.val, 0])

/-- The stored block at any of its indices y: the leading coordinate of y is 0 (that axis has extent 1), so the entry is
    the attention of query row y 1 at channel y 2. -/
private theorem pay_at (x0 : Vec Ideal S1x1024x128 .f32) (x1 x2 : Vec Ideal S1x2048x128 .f32) (x3 : Vec Ideal S1x1x2048 .f32)
    (y : S1x1024x128.Idx) :
    k0_pay1 (F := Ideal) x0 x1 x2 x3 y
      = outK (fun j => scoreK cK (fun e => x0 (ix3 (0 : Fin 1) (y 1) e)) (fun e => x1 (ix3 (0 : Fin 1) j e)))
          (fun j => x3 (ix3 (0 : Fin 1) (0 : Fin 1) j)) (fun j => x2 (ix3 (0 : Fin 1) j (y 2))) := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  exact (congrArg (k0_pay1 (F := Ideal) x0 x1 x2 x3) hy).trans (AttnPay.pay_apply x0 x1 x2 x3 (y 1) (y 2))

/-! ## Each input block as entries of its array

  A block's coordinate on an axis is its block index times the block's extent plus the coordinate inside the block. With
  the block indices of `index_facts`, entry x of a point's input block is the array at the index k whose batch is the
  result block's batch and whose other coordinates are x's, shifted by 1024 rows per half for the query. -/

/-- The query block: rows 1024 h … 1024 h + 1023 of batch b. -/
private theorem q_block (c : Dev nD) (t : Fin cfg0.N) (x : S1x1024x128.Idx) (k : S16x2048x128.Idx)
    (h0 : (k 0).val = win0_4.index t (0 : Fin 3)) (h1 : (k 1).val = win0_4.index t (1 : Fin 3) * 1024 + (x 1).val)
    (h2 : (k 2).val = (x 2).val) :
    (iblk m c 0 t : Vec Ideal S1x1024x128 .f32) x = (V m c main_arg0 : S16x2048x128.Idx → EReal) k := by
  obtain ⟨e00, e01, e02, -⟩ := index_facts t
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; have h : (x 0).val < 1 := (x 0).isLt; omega
  | ⟨1, _⟩ => show win0_0.index t (1 : Fin 3) * 1024 + 1 * (x 1).val = (k 1).val; omega
  | ⟨2, _⟩ => show win0_0.index t (2 : Fin 3) * 128 + 1 * (x 2).val = (k 2).val; omega

/-- The key block: all 2048 rows of batch b. -/
private theorem k_block (c : Dev nD) (t : Fin cfg0.N) (x : S1x2048x128.Idx) (k : S16x2048x128.Idx)
    (h0 : (k 0).val = win0_4.index t (0 : Fin 3)) (h1 : (k 1).val = (x 1).val) (h2 : (k 2).val = (x 2).val) :
    (iblk m c 1 t : Vec Ideal S1x2048x128 .f32) x = (V m c main_arg1 : S16x2048x128.Idx → EReal) k := by
  obtain ⟨-, -, -, e10, e11, e12, -⟩ := index_facts t
  unfold iblk
  rw [View.read_apply]
  show V m c main_arg1 _ = V m c main_arg1 _
  congr 1
  funext a
  apply Fin.ext
  match a with
  | ⟨0, _⟩ => show win0_1.index t (0 : Fin 3) * 1 + 1 * (x 0).val = (k 0).val; have h : (x 0).val < 1 := (x 0).isLt; omega
  | ⟨1, _⟩ => show win0_1.index t (1 : Fin 3) * 2048 + 1 * (x 1).val = (k 1).val; omega
  | ⟨2, _⟩ => show win0_1.index t (2 : Fin 3) * 128 + 1 * (x 2).val = (k 2).val; omega

/-- The value block: all 2048 rows of batch b. -/
private theorem v_block (c : Dev nD) (t : Fin cfg0.N) (x : S1x2048x128.Idx) (k : S16x2048x128.Idx)
    (h0 : (k 0).val = win0_4.index t (0 : Fin 3)) (h1 : (k 1).val = (x 1).val) (h2 : (k 2).val = (x 2).val) :
    (iblk m c 2 t : Vec Ideal S1x2048x128 .f32) x = (V m c main_arg2 : S16x2048x128.Idx → EReal) k := by
  obtain ⟨-, -, -, -, -, -, e20, e21, e22, -⟩ := index_facts t
  unfold iblk
  rw [View.read_apply]
  show V m c main_arg2 _ = V m c main_arg2 _
  congr 1
  funext a
  apply Fin.ext
  match a with
  | ⟨0, _⟩ => show win0_2.index t (0 : Fin 3) * 1 + 1 * (x 0).val = (k 0).val; have h : (x 0).val < 1 := (x 0).isLt; omega
  | ⟨1, _⟩ => show win0_2.index t (1 : Fin 3) * 2048 + 1 * (x 1).val = (k 1).val; omega
  | ⟨2, _⟩ => show win0_2.index t (2 : Fin 3) * 128 + 1 * (x 2).val = (k 2).val; omega

/-- The mask block: the one row of batch b of the mask as reals, laid out [16, 1, 2048]. -/
private theorem mask_block (c : Dev nD) (t : Fin cfg0.N) (x : S1x1x2048.Idx) (k : S16x1x2048.Idx)
    (h0 : (k 0).val = win0_4.index t (0 : Fin 3)) (h2 : (k 2).val = (x 2).val) :
    (iblk m c 3 t : Vec Ideal S1x1x2048 .f32) x = (V m c main_v1 : S16x1x2048.Idx → EReal) k := by
  obtain ⟨-, -, -, -, -, -, -, -, -, e30, e31, e32, -⟩ := index_facts t
  unfold iblk
  rw [View.read_apply]
  show V m c main_v1 _ = V m c main_v1 _
  congr 1
  funext a
  apply Fin.ext
  match a with
  | ⟨0, _⟩ => show win0_3.index t (0 : Fin 3) * 1 + 1 * (x 0).val = (k 0).val; have h : (x 0).val < 1 := (x 0).isLt; omega
  | ⟨1, _⟩ => show win0_3.index t (1 : Fin 3) * 1 + 1 * (x 1).val = (k 1).val; have h : (x 1).val < 1 := (x 1).isLt; have h' : (k 1).val < 1 := (k 1).isLt; omega
  | ⟨2, _⟩ => show win0_3.index t (2 : Fin 3) * 2048 + 1 * (x 2).val = (k 2).val; omega

/-- The array the mask window reads is written before the kernel starts: the integer mask converted to reals, then laid
    out [16, 1, 2048]. Index (b, 0, j) of it and index (b, j) of the mask have the same row-major position 2048 b + j, and
    the conversion of a word at the extended reals is the integer it encodes: the entry is `maskF` of the mask at b, j. -/
private theorem mask_array (c : Dev nD) (b : Fin 16) (j : Fin 2048) :
    (V m c main_v1 : S16x1x2048.Idx → EReal) (ix3 b (0 : Fin 1) j)
      = maskF (m ((c : Thread nD τ).loc main_arg3)) b j := by
  have e : (V m c main_v1 : S16x1x2048.Idx → EReal)
      = shapeCast S16x1x2048 (sitofp (F := Ideal) .f32 (m ((c : Thread nD τ).loc main_arg3) : IVec S16x2048 32))
          shapeCasts_S16x2048_S16x1x2048 := by
    dsimp only [Gen.V, Gen.hostOps0]
    after_results
    rfl
  rw [e, shapeCast_apply _ _ (ix3 b (0 : Fin 1) j) (ix2 b j) (by
    rw [Shape.rowMajor_val_two, Shape.rowMajor_val_three]
    show b.val * 2048 + j.val = (b.val * 1 + 0) * 2048 + j.val
    omega), sitofp_apply]
  rfl

/-! ## What a grid point writes, and the whole array -/

/-- Entry y of the block a point stores is the attention at batch b, query row r, channel d, whenever (b, r, d) is where
    the point's result block puts y: the scores pair query row r with every key row of batch b, the mask row is batch b's,
    and the values are column d of batch b's value rows. -/
private theorem block_entry (c : Dev nD) (t : Fin cfg0.N) (y : S1x1024x128.Idx) (b : Fin 16) (r : Fin 2048) (d : Fin 128)
    (h0 : b.val = win0_4.index t (0 : Fin 3)) (h1 : r.val = win0_4.index t (1 : Fin 3) * 1024 + (y 1).val)
    (h2 : d.val = (y 2).val) :
    outK (fun j => scoreK cK (fun e => (iblk m c 0 t : Vec Ideal S1x1024x128 .f32) (ix3 (0 : Fin 1) (y 1) e))
            (fun e => (iblk m c 1 t : Vec Ideal S1x2048x128 .f32) (ix3 (0 : Fin 1) j e)))
        (fun j => (iblk m c 3 t : Vec Ideal S1x1x2048 .f32) (ix3 (0 : Fin 1) (0 : Fin 1) j))
        (fun j => (iblk m c 2 t : Vec Ideal S1x2048x128 .f32) (ix3 (0 : Fin 1) j (y 2)))
      = GKat (V m c main_arg0) (V m c main_arg1) (V m c main_arg2) (m ((c : Thread nD τ).loc main_arg3)) b r d := by
  unfold GKat
  refine congr (congr (congrArg outK (funext fun j => ?_)) (funext fun j => ?_)) (funext fun j => ?_)
  · refine congr (congrArg (scoreK cK) (funext fun e => ?_)) (funext fun e => ?_)
    · exact q_block m c t _ (ix3 b r e) h0 h1 rfl
    · exact k_block m c t _ (ix3 b j e) h0 rfl rfl
  · exact (mask_block m c t _ (ix3 b (0 : Fin 1) j) h0 rfl).trans (mask_array m c b j)
  · exact v_block m c t _ (ix3 b j d) h0 rfl h2

/-- What grid point t writes back is block t of `GK` of the four arguments. -/
private theorem flushed_eq (c : Dev nD) (t : Fin cfg0.N) :
    (dats m 0 c).flushed 4 t = ((cfg0.win 4).blk t).view.read (Elt Ideal)
      (GK (m ((c : Thread nD τ).loc main_arg0)) (m ((c : Thread nD τ).loc main_arg1))
        (m ((c : Thread nD τ).loc main_arg2)) (m ((c : Thread nD τ).loc main_arg3))) := by
  rw [Value.flushed4, ← V_main_arg0 m c, ← V_main_arg1 m c, ← V_main_arg2 m c]
  unfold Gen.out0_4
  rw [View.canon_unit_zero zero_off]
  simp only [View.ld_unit_zero (S := S1x1024x128) zero_off, View.ld_unit_zero (S := S1x2048x128) zero_off,
    View.ld_unit_zero (S := S1x1x2048) zero_off]
  funext y
  show k0_pay1 (F := Ideal) (iblk m c 0 t) (iblk m c 1 t) (iblk m c 2 t) (iblk m c 3 t) y
    = GKat (V m c main_arg0) (V m c main_arg1) (V m c main_arg2) (m ((c : Thread nD τ).loc main_arg3))
        ((((cfg0.win 4).blk t).view.emb y) 0) ((((cfg0.win 4).blk t).view.emb y) 1) ((((cfg0.win 4).blk t).view.emb y) 2)
  rw [pay_at]
  obtain ⟨-, -, -, -, -, -, -, -, -, -, -, -, -, -, e42⟩ := index_facts t
  have hy0 : (y 0).val < 1 := (y 0).isLt
  have i0 : ((((cfg0.win 4).blk t).view.emb y) 0).val = win0_4.index t (0 : Fin 3) * 1 + 1 * (y 0).val := rfl
  have i1 : ((((cfg0.win 4).blk t).view.emb y) 1).val = win0_4.index t (1 : Fin 3) * 1024 + 1 * (y 1).val := rfl
  have i2 : ((((cfg0.win 4).blk t).view.emb y) 2).val = win0_4.index t (2 : Fin 3) * 128 + 1 * (y 2).val := rfl
  exact block_entry m c t y _ _ _ (by omega) (by omega) (by omega)

/-- An index of the result array is in point t's block iff each coordinate is in the block's range on its axis. -/
private theorem mem_block (t : Fin cfg0.N) (i : S16x2048x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v2).slice (win0_4.rect t)).set ↔ _
  rw [View.set_slice_whole, Rect.mem_set_unit]
  exact Iff.rfl

/-- The 32 blocks cover the array: row i of batch b is in the block of the point with block index (b, i / 1024, 0). -/
private theorem covered (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- So the result array after the run is `GK` of the four arguments. -/
private theorem final (c : Dev nD) :
    (dats m 0 c).arrAt 4 cfg0.N = GK (m ((c : Thread nD τ).loc main_arg0)) (m ((c : Thread nD τ).loc main_arg1))
      (m ((c : Thread nD τ).loc main_arg2)) (m ((c : Thread nD τ).loc main_arg3)) :=
  (dats m 0 c).arrAt_eq_of_cover 4 (GK (m ((c : Thread nD τ).loc main_arg0)) (m ((c : Thread nD τ).loc main_arg1))
      (m ((c : Thread nD τ).loc main_arg2)) (m ((c : Thread nD τ).loc main_arg3)))
    (fun t _ => flushed_eq m c t) covered

/-- The kernel's run ends with its result array at `GK` of the arguments, the arguments unchanged. -/
theorem run : θ_run defs (onTc (τ := τ) (main (F := Ideal))) ⟨m, fun _ => 0, ρ⟩ fun r => ∀ c : Dev nD,
      r.2.mem ((c : Thread nD τ).loc main_v2) = GK (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnValue

end
-- ==== Proof.RefRead.lean ====
/-
  The reference's result array is `Attn.GR` of its four argument arrays: its last stage read at an index, one
  operation at a time, is the reference's arrangement of masked softmax attention.
-/
import proofs.«425559_j5626407157993_3_alg».proof.Proof.Gen.ReferenceIdeal.Read
import proofs.«425559_j5626407157993_3_alg».proof.Proof.Attn
import proofs.«425559_j5626407157993_3_alg».proof.Proof.Consts

noncomputable section

namespace Cert.ReferenceIdeal.AttnRead

open Cert.ReferenceIdeal Cert.ReferenceIdeal.Gen Idealize.ShloMosaic Idealize.ShloMosaic.ValueIdx Cert.Attn

/-- The score of query row i against key row j of batch b. -/
theorem v2_at (x0 x1 : (⟨S16x2048x128, .f32⟩ : BufTy).Contents (Elt Ideal)) (b : Fin 16) (i j : Fin 2048) :
    Read.val_main_v2 (F := Ideal) x0 x1 (ix3 b i j)
      = scoreR dR (fun e => x0 (ix3 b i e)) (fun e => x1 (ix3 b j e)) := by
  have el : ∀ k : Fin 128, Read.lidx_main_v0 (ix3 b i j) k = ix3 b i k := fun k =>
    funext fun a => Fin.ext (by match a with | ⟨0, _⟩ => rfl | ⟨1, _⟩ => rfl | ⟨2, _⟩ => rfl)
  have er : ∀ k : Fin 128, Read.ridx_main_v0 (ix3 b i j) k = ix3 b j k := fun k =>
    funext fun a => Fin.ext (by match a with | ⟨0, _⟩ => rfl | ⟨1, _⟩ => rfl | ⟨2, _⟩ => rfl)
  rw [Read.val_main_v2_apply, Read.val_main_v0_apply, Read.val_main_v1_apply, Read.val_main_cst_apply]
  simp only [Ideal.hostDivf_def, Ideal.ofBits_def, Cert.Consts.ofBits_scaler, el, er]
  rfl

/-- The largest score of query row i of batch b: the reference folds its maximum from minus infinity over the keys. -/
theorem v3_at (x0 x1 : (⟨S16x2048x128, .f32⟩ : BufTy).Contents (Elt Ideal)) (b : Fin 16) (i : Fin 2048) :
    Read.val_main_v3 (F := Ideal) x0 x1 (ix2 b i)
      = rowMax (fun j => scoreR dR (fun e => x0 (ix3 b i e)) (fun e => x1 (ix3 b j e))) := by
  have h : S16x2048x2048.Reduces [2] S16x2048 := by decide
  have hl : ∀ k : Fin (S16x2048x2048.size 2), h.lift (ix2 b i) k = ix3 b i (⟨k.val, k.isLt⟩ : Fin 2048) := fun k => by
    funext c; apply Fin.ext; fin_cases c <;> rfl
  have hf : (Read.val_main_v2 (F := Ideal) x0 x1 ∘ h.lift (ix2 b i))
      = fun j : Fin 2048 => scoreR dR (fun e => x0 (ix3 b i e)) (fun e => x1 (ix3 b j e)) :=
    funext fun k => by
      show Read.val_main_v2 (F := Ideal) x0 x1 (h.lift (ix2 b i) k) = _
      rw [hl k]; exact v2_at x0 x1 b i _
  unfold Read.val_main_v3
  rw [Host.reduce_eq_fold_single FloatOps.maximumf _ _ reducesTo_S16x2048x2048_S16x2048_d2 h h_S_]
  rw [hf, Read.val_main_cst_0_apply, Ideal.ofBits_def, Cert.Consts.ofBits_neg_inf]
  rfl

/-- The weight of key j for query row i of batch b: the exponential of the score's distance below the row maximum,
    times the mask word of (b, j) read as a number. -/
theorem v11_at (x0 x1 : (⟨S16x2048x128, .f32⟩ : BufTy).Contents (Elt Ideal)) (x3 : (⟨S16x2048, .i32⟩ : BufTy).Contents (Elt Ideal))
    (b : Fin 16) (i j : Fin 2048) :
    Read.val_main_v11 (F := Ideal) x0 x1 x3 (ix3 b i j)
      = wt (fun j => scoreR dR (fun e => x0 (ix3 b i e)) (fun e => x1 (ix3 b j e))) (maskF x3 b) j := by
  have e5 : Read.idx_main_v4 (Read.idx_main_v5 (ix3 b i j)) = ix2 b i :=
    funext fun a => Fin.ext (by match a with | ⟨0, _⟩ => rfl | ⟨1, _⟩ => rfl)
  have e10 : Read.idx_main_v9 (Read.idx_main_v10 (ix3 b i j)) = ix2 b j :=
    funext fun a => Fin.ext (by match a with | ⟨0, _⟩ => rfl | ⟨1, _⟩ => rfl)
  rw [Read.val_main_v11_apply, Read.val_main_v7_apply, Read.val_main_v6_apply, Read.val_main_v5_apply,
    Read.val_main_v4_apply, Read.val_main_v10_apply, Read.val_main_v9_apply, Read.val_main_v8_apply, e5, e10,
    v2_at, v3_at]
  simp only [Ideal.mulf_def, Ideal.hostUnary_exp_def, Ideal.subf_def]
  rfl

/-- The denominator of query row i of batch b: the sum of its weights (the sum starts from the word of zero). -/
theorem v12_at (x0 x1 : (⟨S16x2048x128, .f32⟩ : BufTy).Contents (Elt Ideal)) (x3 : (⟨S16x2048, .i32⟩ : BufTy).Contents (Elt Ideal))
    (b : Fin 16) (i : Fin 2048) :
    Read.val_main_v12 (F := Ideal) x0 x1 x3 (ix2 b i)
      = den (fun j => scoreR dR (fun e => x0 (ix3 b i e)) (fun e => x1 (ix3 b j e))) (maskF x3 b) := by
  have e12 : ∀ k : Fin 2048, Read.idx_main_v12 (ix2 b i) k = ix3 b i k := fun k =>
    funext fun a => Fin.ext (by match a with | ⟨0, _⟩ => rfl | ⟨1, _⟩ => rfl | ⟨2, _⟩ => rfl)
  rw [Read.val_main_v12_apply, Read.val_main_cst_1_apply, Ideal.ofBits_def, Ideal.ofBits_zero_f32, zero_add]
  simp only [e12, v11_at]
  rfl

/-- A weight divided by its row's denominator. -/
theorem v15_at (x0 x1 : (⟨S16x2048x128, .f32⟩ : BufTy).Contents (Elt Ideal)) (x3 : (⟨S16x2048, .i32⟩ : BufTy).Contents (Elt Ideal))
    (b : Fin 16) (i j : Fin 2048) :
    Read.val_main_v15 (F := Ideal) x0 x1 x3 (ix3 b i j)
      = Ideal.div (wt (fun j => scoreR dR (fun e => x0 (ix3 b i e)) (fun e => x1 (ix3 b j e))) (maskF x3 b) j)
          (den (fun j => scoreR dR (fun e => x0 (ix3 b i e)) (fun e => x1 (ix3 b j e))) (maskF x3 b)) := by
  have e14 : Read.idx_main_v13 (Read.idx_main_v14 (ix3 b i j)) = ix2 b i :=
    funext fun a => Fin.ext (by match a with | ⟨0, _⟩ => rfl | ⟨1, _⟩ => rfl)
  rw [Read.val_main_v15_apply, Read.val_main_v14_apply, Read.val_main_v13_apply, e14, v11_at, v12_at,
    Ideal.hostDivf_def]

/-- The reference's last stage is `GR`. -/
theorem ref_eq (x0 x1 x2 : (⟨S16x2048x128, .f32⟩ : BufTy).Contents (Elt Ideal)) (x3 : (⟨S16x2048, .i32⟩ : BufTy).Contents (Elt Ideal)) :
    Cert.ReferenceIdeal.Read.val_main_v16 (F := Ideal) x0 x1 x2 x3 = GR x0 x1 x2 x3 := by
  funext x
  obtain ⟨b, i, d, rfl⟩ : ∃ (b : Fin 16) (i : Fin 2048) (d : Fin 128), x = ix3 b i d := ⟨x 0, x 1, x 2, eq_ix3 x⟩
  have el : ∀ k : Fin 2048, Read.lidx_main_v16 (ix3 b i d) k = ix3 b i k := fun k =>
    funext fun a => Fin.ext (by match a with | ⟨0, _⟩ => rfl | ⟨1, _⟩ => rfl | ⟨2, _⟩ => rfl)
  have er : ∀ k : Fin 2048, Read.ridx_main_v16 (ix3 b i d) k = ix3 b k d := fun k =>
    funext fun a => Fin.ext (by match a with | ⟨0, _⟩ => rfl | ⟨1, _⟩ => rfl | ⟨2, _⟩ => rfl)
  rw [Read.val_main_v16_apply]
  simp only [el, er, v15_at]
  rfl

end Cert.ReferenceIdeal.AttnRead

end
-- ==== Proof.lean ====
/- Masked softmax attention, one pallas_call over a 16 × 2 grid, against its jnp reference, over the extended reals.

   Both programs compute, for batch b, query row i and channel d,
     out[b, i, d] = Σ_j w[b, i, j] · v[b, j, d] / Σ_j w[b, i, j],   w[b, i, j] = exp (s[b, i, j] − max_j s[b, i, j]) · mask[b, j],
   with the scores s[b, i, j] the inner product of q[b, i, :] and k[b, j, :] scaled by 1 / D, D the single-precision
   neighbour of √128. The kernel scales the query entries by its constant, which the statement names 1 / D exactly, and
   divides the weighted sum once; the reference divides the inner product by D and every weight by the denominator.
   The two agree where q, k, v are finite and the mask holds zeros and ones with a one in every batch row: the
   denominator is then a positive real and division distributes over the finite sums (Proof/Attn.lean).
   The kernel's array is read off its run block by block (Proof/KernelPay.lean, Proof/KernelValue.lean), the
   reference's off its run one operation at a time (Proof/RefRead.lean), the precondition is decoded in
   Proof/PreFacts.lean. -/
import proofs.«425559_j5626407157993_3_alg».proof.Defs
import proofs.«425559_j5626407157993_3_alg».proof.Proof.Gen.Kernel
import proofs.«425559_j5626407157993_3_alg».proof.Proof.Gen.Kernel.Skeleton
import proofs.«425559_j5626407157993_3_alg».proof.Proof.Gen.Kernel.Launch
import proofs.«425559_j5626407157993_3_alg».proof.Proof.Gen.Kernel.Points
import proofs.«425559_j5626407157993_3_alg».proof.Proof.Gen.Kernel.Frame
import proofs.«425559_j5626407157993_3_alg».proof.Proof.Gen.KernelIdeal
import proofs.«425559_j5626407157993_3_alg».proof.Proof.Gen.KernelIdeal.Skeleton
import proofs.«425559_j5626407157993_3_alg».proof.Proof.Gen.KernelIdeal.Launch
import proofs.«425559_j5626407157993_3_alg».proof.Proof.Gen.KernelIdeal.Points
import proofs.«425559_j5626407157993_3_alg».proof.Proof.Gen.KernelIdeal.Frame
import proofs.«425559_j5626407157993_3_alg».proof.Proof.Gen.ReferenceIdeal
import proofs.«425559_j5626407157993_3_alg».proof.Proof.Gen.Pre_finite_inputs
import proofs.«425559_j5626407157993_3_alg».proof.Proof.Gen.KernelIdeal.Value
import proofs.«425559_j5626407157993_3_alg».proof.Proof.Gen.ReferenceIdeal.Run
import proofs.«425559_j5626407157993_3_alg».proof.Proof.Gen.ReferenceIdeal.Read
import proofs.«425559_j5626407157993_3_alg».proof.Proof.Attn
import proofs.«425559_j5626407157993_3_alg».proof.Proof.PreFacts
import proofs.«425559_j5626407157993_3_alg».proof.Proof.KernelValue
import proofs.«425559_j5626407157993_3_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale constant is named 1 / D, and the table gives that name
    that value. -/
theorem preserves : Cert.preserves_Kernel_KernelIdeal :=
  IdealRules.named_const.statement Cert.KernelIdeal.κ "inv_scaler" .f32 0x3DB504F3#32 ((1048576 / 11863283 : ℝ) : EReal) rfl

/-- The kernel's array is `Attn.GK` of the arguments, the reference's `Attn.GR`; under the precondition they are one. -/
theorem algebraic : Cert.algebraic_KernelIdeal_ReferenceIdeal := by
  intro m ρ m' ρ' hpre hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v16_eq, Cert.ReferenceIdeal.AttnRead.ref_eq]
  obtain ⟨hq, hk, hv, h01, hrow⟩ := Cert.PreFacts.decode _ _ _ _ (hpre c)
  exact (Cert.Attn.GK_eq_GR hq hk hv h01 hrow).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
